-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x256 .f32) (main_arg1 : IVec S800000 32) (main_arg2 : IVec S800000 32) (main_arg3 : FVec F S256x128 .f32) (main_arg4 : FVec F S128 .f32) (main_arg5 : FVec F S128x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg5
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg6 main_v13 main_v16
-- ==== Kernel.lean ====
abbrev S100000x256 : Shape := ⟨2, ![100000, 256]⟩
abbrev S800000 : Shape := ⟨1, ![800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S800000x128 : Shape := ⟨2, ![800000, 128]⟩
abbrev S1x128 : Shape := ⟨2, ![1, 128]⟩
abbrev S100000x40 : Shape := ⟨2, ![100000, 40]⟩
abbrev S5000x40 : Shape := ⟨2, ![5000, 40]⟩
abbrev S800000x40 : Shape := ⟨2, ![800000, 40]⟩
abbrev S1x40 : Shape := ⟨2, ![1, 40]⟩

abbrev nBuf : Space → Nat
  | .hbm => 71
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S100000, .f32⟩
  | .hbm, ⟨11, _⟩ => ⟨S800000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S800000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S100000x128, .f32⟩
  | .hbm, ⟨51, _⟩ => ⟨S800000x1, .i32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x40, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x40, .f32⟩
  | .hbm, ⟨65, _⟩ => ⟨S_, .f32⟩
  | .hbm, ⟨66, _⟩ => ⟨S100000x40, .f32⟩
  | .hbm, ⟨67, _⟩ => ⟨S800000x1, .i32⟩
  | .hbm, ⟨68, _⟩ => ⟨S100000x40, .f32⟩
  | .hbm, ⟨69, _⟩ => ⟨S1x40, .f32⟩
  | .hbm, ⟨70, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x40, .f32⟩
  | .local _ .vmem, ⟨19, _⟩ => ⟨S5000x40, .f32⟩
  | .local _ .vmem, ⟨20, _⟩ => ⟨S5000x40, .f32⟩
  | .local _ .vmem, ⟨21, _⟩ => ⟨S5000x40, .f32⟩
  | .local _ .vmem, ⟨22, _⟩ => ⟨S5000x40, .f32⟩
  | .local _ .vmem, ⟨23, _⟩ => ⟨S5000x1, .f32⟩
  | .local _ .vmem, ⟨24, _⟩ => ⟨S5000x1, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_10 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S800000x1_S800000_n_0_0_1_wf : ScatterDims.WF S100000 S800000x1 S800000 [] [0] [0] 1
  dot_S5000x256_S256x128_S5000x128_1_0_0_1_n_n_wf : DotDims.WF S5000x256 S256x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x40_S5000x40_1_0_0_1_n_n_wf : DotDims.WF S5000x128 S128x40 S5000x40 [1] [0] [0] [1] [] []
  gather_S100000x40_S800000x1_S800000x40_1_0_n_n_0_1_140_wf : GatherDims.WF S100000x40 S800000x1 S800000x40 [1] [0] [] [0] [] 1 ![1, 40]
  scatter_S100000x40_S800000x1_S800000x40_1_0_0_1_wf : ScatterDims.WF S100000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S800000x1_S800000x40_1_0_n_n_0_1_140 : GatherDims S100000x40 S800000x1 S800000x40 where
  offsetDims := [1]
  collapsedSliceDims := [0]
  operandBatchingDims := []
  startIndicesBatchingDims := []
  startIndexMap := [0]
  indexVectorDim := 1
  sliceSizes := ![1, 40]
  wf := gather_S100000x40_S800000x1_S800000x40_1_0_n_n_0_1_140_wf
def scatter_S100000x40_S800000x1_S800000x40_1_0_0_1 : ScatterDims S100000x40 S800000x1 S800000x40 where
  updateWindowDims := [1]
  insertedWindowDims := [0]
  scatterDimsToOperandDims := [0]
  indexVectorDim := 1
  wf := scatter_S100000x40_S800000x1_S800000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S800000 : Shape := ⟨1, ![800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x128 : Shape := ⟨2, ![100000, 128]⟩
abbrev S800000x128 : Shape := ⟨2, ![800000, 128]⟩
abbrev S1x128 : Shape := ⟨2, ![1, 128]⟩
abbrev S100000x40 : Shape := ⟨2, ![100000, 40]⟩
abbrev S800000x40 : Shape := ⟨2, ![800000, 40]⟩
abbrev S1x40 : Shape := ⟨2, ![1, 40]⟩

abbrev nBuf : Space → Nat
  | .hbm => 84
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S100000, .f32⟩
  | .hbm, ⟨11, _⟩ => ⟨S800000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S800000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x256, .f32⟩
  | .hbm, ⟨40, _⟩ => ⟨S100000x256, .f32⟩
  | .hbm, ⟨41, _⟩ => ⟨S100000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S100000x128, .f32⟩
  | .hbm, ⟨53, _⟩ => ⟨S800000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x40, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x40, .f32⟩
  | .hbm, ⟨75, _⟩ => ⟨S_, .f32⟩
  | .hbm, ⟨76, _⟩ => ⟨S100000x40, .f32⟩
  | .hbm, ⟨77, _⟩ => ⟨S800000x1, .i32⟩
  | .hbm, ⟨78, _⟩ => ⟨S100000x40, .f32⟩
  | .hbm, ⟨79, _⟩ => ⟨S100000x40, .f32⟩
  | .hbm, ⟨80, _⟩ => ⟨S100000x40, .f32⟩
  | .hbm, ⟨81, _⟩ => ⟨S1x40, .f32⟩
  | .hbm, ⟨82, _⟩ => ⟨S100000x40, .f32⟩
  | .hbm, ⟨83, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call2_cst : Ref sig .tc := ⟨.hbm, 60, rfl⟩
abbrev main_call2_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S800000x1_S800000_n_0_0_1_wf : ScatterDims.WF S100000 S800000x1 S800000 [] [0] [0] 1
  dot_S100000x256_S256x128_S100000x128_1_0_0_1_n_n_wf : DotDims.WF S100000x256 S256x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x40_S100000x40_1_0_0_1_n_n_wf : DotDims.WF S100000x128 S128x40 S100000x40 [1] [0] [0] [1] [] []
  gather_S100000x40_S800000x1_S800000x40_1_0_n_n_0_1_140_wf : GatherDims.WF S100000x40 S800000x1 S800000x40 [1] [0] [] [0] [] 1 ![1, 40]
  scatter_S100000x40_S800000x1_S800000x40_1_0_0_1_wf : ScatterDims.WF S100000x40 S800000x1 S800000x40 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S800000x1_S800000x40_1_0_n_n_0_1_140 : GatherDims S100000x40 S800000x1 S800000x40 where
  offsetDims := [1]
  collapsedSliceDims := [0]
  operandBatchingDims := []
  startIndicesBatchingDims := []
  startIndexMap := [0]
  indexVectorDim := 1
  sliceSizes := ![1, 40]
  wf := gather_S100000x40_S800000x1_S800000x40_1_0_n_n_0_1_140_wf
def scatter_S100000x40_S800000x1_S800000x40_1_0_0_1 : ScatterDims S100000x40 S800000x1 S800000x40 where
  updateWindowDims := [1]
  insertedWindowDims := [0]
  scatterDimsToOperandDims := [0]
  indexVectorDim := 1
  wf := scatter_S100000x40_S800000x1_S800000x40_1_0_0_1_wf

class Facts : Prop extends Facts₀ where

variable [Facts]
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.LibGcn.lean ====
/-
  The two dense stretches of one graph-convolution layer, entry by entry, on the extended reals.

  A layer takes node features `x` (one row per node), a per-node scale `s` (a column: the inverse square root of a
  degree), a weight matrix `w`, and, after the edges have been summed, a second per-node scale and a bias row `b`.
  Its first stretch is the projection: entry (r, j) is `∑ k, (x r k · s r) · w k j` — every feature of node `r` scaled
  by the node's own factor, then the row times the weights. Its last stretch is entry (r, j) ↦ `a r j · s r + b j`,
  with or without the maximum with zero. Both stretches depend on row `r` of their first operand only, so they read
  the same way on a tile of rows and on all rows; and a change of float format is the identity on the extended reals,
  so rounding the product's operands to a narrower format changes nothing here.

  Each stretch is stated once as a function of whole arrays and then recognised in the two spellings that occur:
  the tile body's (a shape cast of each loaded tile, the column laid along the row by a vector broadcast, the operands
  of the product narrowed, the product accumulated into a zero tile, the bias a one-row tile) and the array
  program's (the column laid along the row by naming its two axes, the product with no accumulator, the bias vector
  laid along axis 1 of a one-row matrix and that row down the rows, the zero a broadcast scalar).
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import proofs.«158291_j30202210026006_1_alg».proof.Proof.LibDense

noncomputable section

namespace Cert.LibGcn

open Idealize.ShloMosaic Idealize.ShloMosaic.ValueIdx Cert.LibDense

/-! ## Three layout reads -/

section Layout

variable {α : Type}

/-- A column `[a, 1]` laid along every row of `[a, b]` by a vector broadcast reads, at (p, c), the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same column laid along the rows by naming its axes (0, 1) reads the same way. -/
theorem broadcastInDim_oneCol_apply {m n : ℕ} (hbc : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hbc y (ix2 r t) = y (ix2 r (0 : Fin 1)) := by
  refine broadcastInDim_apply ![0, 1] hbc y (ix2 r t) (ix2 r (0 : Fin 1)) ?_
  intro ax
  match ax with
  | ⟨0, _⟩ =>
    show r.val = if m = 1 then 0 else r.val
    split
    · have := r.isLt; omega
    · rfl
  | ⟨1, _⟩ => rfl

/-- A vector `[n]` recast as the one-row matrix `[1, n]` reads, at (0, c), the vector at `c`. -/
theorem shapeCast_vec_row_apply {n : ℕ} (x : (⟨1, ![n]⟩ : Shape).Idx → α) (h : (⟨1, ![n]⟩ : Shape).ShapeCasts ⟨2, ![1, n]⟩) (c : Fin n) :
    shapeCast ⟨2, ![1, n]⟩ x h (ix2 (0 : Fin 1) c) = x (ix1 c) := by
  refine shapeCast_apply x h (ix2 (0 : Fin 1) c) (ix1 c) ?_
  rw [Shape.rowMajor_val_one, Shape.rowMajor_val_two]
  show c.val = 0 * n + c.val
  omega

end Layout

/-! ## The two stretches as functions of whole arrays -/

section Spec

variable {M K N : ℕ}

/-- The projection: entry (r, j) is `∑ k, (x r k · s r) · w k j`. -/
def proj (x : FVec Ideal ⟨2, ![M, K]⟩ .f32) (s : FVec Ideal ⟨2, ![M, 1]⟩ .f32) (w : FVec Ideal ⟨2, ![K, N]⟩ .f32) :
    FVec Ideal ⟨2, ![M, N]⟩ .f32 :=
  fun i => ∑ k : Fin K, (x (ix2 (⟨(i 0).val, (i 0).isLt⟩ : Fin M) k) * s (ix2 (⟨(i 0).val, (i 0).isLt⟩ : Fin M) (0 : Fin 1)))
    * w (ix2 k (⟨(i 1).val, (i 1).isLt⟩ : Fin N))

theorem proj_apply (x : FVec Ideal ⟨2, ![M, K]⟩ .f32) (s : FVec Ideal ⟨2, ![M, 1]⟩ .f32) (w : FVec Ideal ⟨2, ![K, N]⟩ .f32)
    (r : Fin M) (j : Fin N) : proj x s w (ix2 r j) = ∑ k : Fin K, (x (ix2 r k) * s (ix2 r (0 : Fin 1))) * w (ix2 k j) := rfl

/-- Scale by the node's factor and add the bias: entry (r, j) is `a r j · s r + b j`. -/
def scaleBias (a : FVec Ideal ⟨2, ![M, N]⟩ .f32) (s : FVec Ideal ⟨2, ![M, 1]⟩ .f32) (b : FVec Ideal ⟨1, ![N]⟩ .f32) :
    FVec Ideal ⟨2, ![M, N]⟩ .f32 :=
  fun i => a i * s (ix2 (⟨(i 0).val, (i 0).isLt⟩ : Fin M) (0 : Fin 1)) + b (ix1 (⟨(i 1).val, (i 1).isLt⟩ : Fin N))

theorem scaleBias_apply (a : FVec Ideal ⟨2, ![M, N]⟩ .f32) (s : FVec Ideal ⟨2, ![M, 1]⟩ .f32) (b : FVec Ideal ⟨1, ![N]⟩ .f32)
    (r : Fin M) (j : Fin N) : scaleBias a s b (ix2 r j) = a (ix2 r j) * s (ix2 r (0 : Fin 1)) + b (ix1 j) := rfl

/-- The same followed by the maximum with zero. -/
def scaleBiasRelu (a : FVec Ideal ⟨2, ![M, N]⟩ .f32) (s : FVec Ideal ⟨2, ![M, 1]⟩ .f32) (b : FVec Ideal ⟨1, ![N]⟩ .f32) :
    FVec Ideal ⟨2, ![M, N]⟩ .f32 :=
  fun i => max (scaleBias a s b i) 0

theorem scaleBiasRelu_apply (a : FVec Ideal ⟨2, ![M, N]⟩ .f32) (s : FVec Ideal ⟨2, ![M, 1]⟩ .f32) (b : FVec Ideal ⟨1, ![N]⟩ .f32)
    (r : Fin M) (j : Fin N) :
    scaleBiasRelu a s b (ix2 r j) = max (a (ix2 r j) * s (ix2 r (0 : Fin 1)) + b (ix1 j)) 0 := rfl

end Spec

/-! ## The projection in its two spellings -/

section Proj

variable {M K N : ℕ}

/-- The tile body's projection: the column shape-cast and laid along the row, the scaled features and the weights
    narrowed, the product accumulated into a zero tile. -/
theorem kernel_proj_eq (d : DotDims ⟨2, ![M, K]⟩ ⟨2, ![K, N]⟩ ⟨2, ![M, N]⟩) (hd : d = DotDims.plain M K N)
    (x : FVec Ideal ⟨2, ![M, K]⟩ .f32) (s : FVec Ideal ⟨2, ![M, 1]⟩ .f32) (w : FVec Ideal ⟨2, ![K, N]⟩ .f32)
    (hs : (⟨2, ![M, 1]⟩ : Shape).ShapeCasts ⟨2, ![M, 1]⟩) (hb : (⟨2, ![M, 1]⟩ : Shape).Broadcasts ⟨2, ![M, K]⟩)
    (h1 h2 : FTy.bf16.bits < FTy.f32.bits) :
    matmul d none (truncf .bf16 (mulf x (broadcastTo ⟨2, ![M, K]⟩ (shapeCast ⟨2, ![M, 1]⟩ s hs) hb)) h1) (truncf .bf16 w h2)
        (constant (F := Ideal) ⟨2, ![M, N]⟩ .f32 0x00000000#32)
      = proj x s w := by
  subst hd
  funext i
  obtain ⟨r, j, rfl⟩ : ∃ (r : Fin M) (j : Fin N), i = ix2 r j := ⟨i 0, i 1, eq_ix2 i⟩
  show FloatOps.matmul (DotDims.plain M K N) none (truncf .bf16 (mulf x (broadcastTo ⟨2, ![M, K]⟩ (shapeCast ⟨2, ![M, 1]⟩ s hs) hb)) h1)
      (truncf .bf16 w h2) (constant ⟨2, ![M, N]⟩ .f32 0x00000000#32) (ix2 r j) = _
  rw [matmul_plain_zero_apply, proj_apply]
  refine Finset.sum_congr rfl fun k _ => ?_
  show x (ix2 r k) * broadcastTo ⟨2, ![M, K]⟩ (shapeCast ⟨2, ![M, 1]⟩ s hs) hb (ix2 r k) * w (ix2 k j) = _
  rw [broadcastTo_a1_ab_apply, shapeCast_self]

/-- The same with the loaded feature tile shape-cast to its own shape first, as a body that reshapes its first operand
    spells it. -/
theorem kernel_proj_cast_eq (d : DotDims ⟨2, ![M, K]⟩ ⟨2, ![K, N]⟩ ⟨2, ![M, N]⟩) (hd : d = DotDims.plain M K N)
    (x : FVec Ideal ⟨2, ![M, K]⟩ .f32) (s : FVec Ideal ⟨2, ![M, 1]⟩ .f32) (w : FVec Ideal ⟨2, ![K, N]⟩ .f32)
    (hx : (⟨2, ![M, K]⟩ : Shape).ShapeCasts ⟨2, ![M, K]⟩)
    (hs : (⟨2, ![M, 1]⟩ : Shape).ShapeCasts ⟨2, ![M, 1]⟩) (hb : (⟨2, ![M, 1]⟩ : Shape).Broadcasts ⟨2, ![M, K]⟩)
    (h1 h2 : FTy.bf16.bits < FTy.f32.bits) :
    matmul d none (truncf .bf16 (mulf (shapeCast ⟨2, ![M, K]⟩ x hx) (broadcastTo ⟨2, ![M, K]⟩ (shapeCast ⟨2, ![M, 1]⟩ s hs) hb)) h1)
        (truncf .bf16 w h2) (constant (F := Ideal) ⟨2, ![M, N]⟩ .f32 0x00000000#32)
      = proj x s w := by
  rw [shapeCast_self]
  exact kernel_proj_eq d hd x s w hs hb h1 h2

/-- The array program's projection: the column laid along the row by its axes, the product with no accumulator. -/
theorem host_proj_eq (d : DotDims ⟨2, ![M, K]⟩ ⟨2, ![K, N]⟩ ⟨2, ![M, N]⟩) (hd : d = DotDims.plain M K N)
    (x : FVec Ideal ⟨2, ![M, K]⟩ .f32) (s : FVec Ideal ⟨2, ![M, 1]⟩ .f32) (w : FVec Ideal ⟨2, ![K, N]⟩ .f32)
    (hb : (⟨2, ![M, 1]⟩ : Shape).BroadcastsInDim ⟨2, ![M, K]⟩ ![0, 1]) :
    Host.dotGeneral d none (mulf x (broadcastInDim ⟨2, ![M, K]⟩ ![0, 1] hb s)) w = proj x s w := by
  subst hd
  funext i
  obtain ⟨r, j, rfl⟩ : ∃ (r : Fin M) (j : Fin N), i = ix2 r j := ⟨i 0, i 1, eq_ix2 i⟩
  show FloatOps.dotGeneral (DotDims.plain M K N) none .single (mulf x (broadcastInDim ⟨2, ![M, K]⟩ ![0, 1] hb s)) w (ix2 r j) = _
  rw [dotGeneral_plain_apply, proj_apply]
  refine Finset.sum_congr rfl fun k _ => ?_
  show x (ix2 r k) * broadcastInDim ⟨2, ![M, K]⟩ ![0, 1] hb s (ix2 r k) * w (ix2 k j) = _
  rw [broadcastInDim_oneCol_apply]

end Proj

/-! ## The scale-and-bias stretch in its two spellings -/

section Fin

variable {M N : ℕ}

/-- The tile body's: each loaded tile shape-cast, the column and the one-row bias laid over the tile by vector
    broadcasts. The bias tile is any one-row tile whose entries are the bias vector's. -/
theorem kernel_scaleBias_eq (a : FVec Ideal ⟨2, ![M, N]⟩ .f32) (s : FVec Ideal ⟨2, ![M, 1]⟩ .f32) (b2 : FVec Ideal ⟨2, ![1, N]⟩ .f32)
    (b : FVec Ideal ⟨1, ![N]⟩ .f32) (hb2 : ∀ j : Fin N, b2 (ix2 (0 : Fin 1) j) = b (ix1 j))
    (ha : (⟨2, ![M, N]⟩ : Shape).ShapeCasts ⟨2, ![M, N]⟩) (hs : (⟨2, ![M, 1]⟩ : Shape).ShapeCasts ⟨2, ![M, 1]⟩)
    (hsb : (⟨2, ![M, 1]⟩ : Shape).Broadcasts ⟨2, ![M, N]⟩) (hbc : (⟨2, ![1, N]⟩ : Shape).ShapeCasts ⟨2, ![1, N]⟩)
    (hbb : (⟨2, ![1, N]⟩ : Shape).Broadcasts ⟨2, ![M, N]⟩) :
    addf (mulf (shapeCast ⟨2, ![M, N]⟩ a ha) (broadcastTo ⟨2, ![M, N]⟩ (shapeCast ⟨2, ![M, 1]⟩ s hs) hsb))
        (broadcastTo ⟨2, ![M, N]⟩ (shapeCast ⟨2, ![1, N]⟩ b2 hbc) hbb)
      = scaleBias a s b := by
  funext i
  obtain ⟨r, j, rfl⟩ : ∃ (r : Fin M) (j : Fin N), i = ix2 r j := ⟨i 0, i 1, eq_ix2 i⟩
  show shapeCast ⟨2, ![M, N]⟩ a ha (ix2 r j) * broadcastTo ⟨2, ![M, N]⟩ (shapeCast ⟨2, ![M, 1]⟩ s hs) hsb (ix2 r j)
      + broadcastTo ⟨2, ![M, N]⟩ (shapeCast ⟨2, ![1, N]⟩ b2 hbc) hbb (ix2 r j) = _
  rw [broadcastTo_a1_ab_apply, broadcastTo_1b_ab_apply, shapeCast_self, shapeCast_self, shapeCast_self, hb2, scaleBias_apply]

/-- The tile body's, followed by the maximum with a splat zero. -/
theorem kernel_scaleBiasRelu_eq (a : FVec Ideal ⟨2, ![M, N]⟩ .f32) (s : FVec Ideal ⟨2, ![M, 1]⟩ .f32) (b2 : FVec Ideal ⟨2, ![1, N]⟩ .f32)
    (b : FVec Ideal ⟨1, ![N]⟩ .f32) (hb2 : ∀ j : Fin N, b2 (ix2 (0 : Fin 1) j) = b (ix1 j))
    (ha : (⟨2, ![M, N]⟩ : Shape).ShapeCasts ⟨2, ![M, N]⟩) (hs : (⟨2, ![M, 1]⟩ : Shape).ShapeCasts ⟨2, ![M, 1]⟩)
    (hsb : (⟨2, ![M, 1]⟩ : Shape).Broadcasts ⟨2, ![M, N]⟩) (hbc : (⟨2, ![1, N]⟩ : Shape).ShapeCasts ⟨2, ![1, N]⟩)
    (hbb : (⟨2, ![1, N]⟩ : Shape).Broadcasts ⟨2, ![M, N]⟩) :
    maximumf (addf (mulf (shapeCast ⟨2, ![M, N]⟩ a ha) (broadcastTo ⟨2, ![M, N]⟩ (shapeCast ⟨2, ![M, 1]⟩ s hs) hsb))
        (broadcastTo ⟨2, ![M, N]⟩ (shapeCast ⟨2, ![1, N]⟩ b2 hbc) hbb))
        (broadcast ⟨2, ![M, N]⟩ (Scalar.ofBits (F := Ideal) .f32 0x00000000#32))
      = scaleBiasRelu a s b := by
  rw [kernel_scaleBias_eq a s b2 b hb2 ha hs hsb hbc hbb]
  funext i
  show max (scaleBias a s b i) (Ideal.ofBits .f32 0x00000000#32) = max (scaleBias a s b i) 0
  rw [Ideal.ofBits_zero_f32]

/-- The array program's: the column laid along the row by its axes, the bias vector laid along axis 1 of a one-row
    matrix and that row down the rows. -/
theorem host_scaleBias_eq (a : FVec Ideal ⟨2, ![M, N]⟩ .f32) (s : FVec Ideal ⟨2, ![M, 1]⟩ .f32) (b : FVec Ideal ⟨1, ![N]⟩ .f32)
    (hs : (⟨2, ![M, 1]⟩ : Shape).BroadcastsInDim ⟨2, ![M, N]⟩ ![0, 1]) (h1 : (⟨1, ![N]⟩ : Shape).BroadcastsInDim ⟨2, ![1, N]⟩ ![1])
    (h2 : (⟨2, ![1, N]⟩ : Shape).BroadcastsInDim ⟨2, ![M, N]⟩ ![0, 1]) :
    addf (mulf a (broadcastInDim ⟨2, ![M, N]⟩ ![0, 1] hs s))
        (broadcastInDim ⟨2, ![M, N]⟩ ![0, 1] h2 (broadcastInDim ⟨2, ![1, N]⟩ ![1] h1 b))
      = scaleBias a s b := by
  funext i
  obtain ⟨r, j, rfl⟩ : ∃ (r : Fin M) (j : Fin N), i = ix2 r j := ⟨i 0, i 1, eq_ix2 i⟩
  have e1 := broadcastInDim_apply ![1] h1 b (ix2 (0 : Fin 1) j) (ix1 j) (fun ax => by
    match ax with
    | ⟨0, _⟩ =>
      show j.val = if N = 1 then 0 else j.val
      split
      · have := j.isLt; omega
      · rfl)
  show a (ix2 r j) * broadcastInDim ⟨2, ![M, N]⟩ ![0, 1] hs s (ix2 r j)
      + broadcastInDim ⟨2, ![M, N]⟩ ![0, 1] h2 (broadcastInDim ⟨2, ![1, N]⟩ ![1] h1 b) (ix2 r j) = _
  rw [broadcastInDim_oneCol_apply, broadcastInDim_oneRow_apply, e1, scaleBias_apply]

/-- The array program's, followed by the maximum with a broadcast zero. -/
theorem host_scaleBiasRelu_eq (a : FVec Ideal ⟨2, ![M, N]⟩ .f32) (s : FVec Ideal ⟨2, ![M, 1]⟩ .f32) (b : FVec Ideal ⟨1, ![N]⟩ .f32)
    (hs : (⟨2, ![M, 1]⟩ : Shape).BroadcastsInDim ⟨2, ![M, N]⟩ ![0, 1]) (h1 : (⟨1, ![N]⟩ : Shape).BroadcastsInDim ⟨2, ![1, N]⟩ ![1])
    (h2 : (⟨2, ![1, N]⟩ : Shape).BroadcastsInDim ⟨2, ![M, N]⟩ ![0, 1]) (h0 : (⟨0, ![]⟩ : Shape).BroadcastsInDim ⟨2, ![M, N]⟩ ![]) :
    maximumf (addf (mulf a (broadcastInDim ⟨2, ![M, N]⟩ ![0, 1] hs s))
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = scaleBiasRelu a s b := by
  rw [host_scaleBias_eq a s b hs h1 h2]
  funext i
  have e0 := broadcastInDim_apply ![] h0 (constant (F := Ideal) ⟨0, ![]⟩ .f32 0x00000000#32) i (fun ax => ax.elim0)
    (fun ax => ax.elim0)
  show max (scaleBias a s b i) (broadcastInDim ⟨2, ![M, N]⟩ ![] h0 (constant (F := Ideal) ⟨0, ![]⟩ .f32 0x00000000#32) i)
      = max (scaleBias a s b i) 0
  rw [e0]
  show max _ (Ideal.ofBits .f32 0x00000000#32) = _
  rw [Ideal.ofBits_zero_f32]

end Fin

end Cert.LibGcn

end
-- ==== Proof.Region0.lean ====
/-
  The first projection, from tiles to the whole array.

  The call walks the 100000 nodes in 20 tiles of 5000 rows. At tile `t` the body reads rows 5000·t … 5000·t + 4999 of
  the features (all 256 columns), the same rows of the per-node scale column, and the whole 256 × 128 weight matrix,
  and writes rows 5000·t … of the 128-column result. A projection's row `r` depends on row `r` of the features and of
  the scale only, so what tile `t` writes is rows 5000·t … of the projection of the WHOLE arrays; the 20 tiles
  cover every row, so after the call the result array is that projection.
-/
import proofs.«158291_j30202210026006_1_alg».proof.Proof.Gen.KernelIdeal.Frame
import proofs.«158291_j30202210026006_1_alg».proof.Proof.LibGcn
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

-- the buffers' contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The grid has 20 tiles. -/
theorem tlt (t : Fin cfg0.N) : t.val < 20 := Nat.lt_of_lt_of_eq t.isLt N_0

/-- The block index of each window at tile `t`: the row-tiled windows (features, scale, result) sit at block row `t`,
    the weights at block 0. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of tile `t` is row 5000·t + p of the array. -/
abbrev row (t : Fin cfg0.N) (p : Fin 5000) : Fin 100000 := ⟨t.val * 5000 + p.val, by have := tlt t; have := p.isLt; omega⟩

/-! ## Where a tile's entry sits in its array -/

theorem emb0 (t : Fin cfg0.N) (p : Fin 5000) (k : Fin 256) :
    ((cfg0.win 0).blk t).view.emb (ix2 p k) = ix2 (row t p) k := by
  obtain ⟨e0, e1, -⟩ := idx t
  funext a; apply Fin.ext
  match a with
  | ⟨0, _⟩ => show win0_0.index t (0 : Fin 2) * 5000 + 1 * p.val = t.val * 5000 + p.val; omega
  | ⟨1, _⟩ => show win0_0.index t (1 : Fin 2) * 256 + 1 * k.val = k.val; omega

theorem emb1 (t : Fin cfg0.N) (p : Fin 5000) (z : Fin 1) :
    ((cfg0.win 1).blk t).view.emb (ix2 p z) = ix2 (row t p) z := by
  obtain ⟨-, -, e0, e1, -⟩ := idx t
  funext a; apply Fin.ext
  match a with
  | ⟨0, _⟩ => show win0_1.index t (0 : Fin 2) * 5000 + 1 * p.val = t.val * 5000 + p.val; omega
  | ⟨1, _⟩ => show win0_1.index t (1 : Fin 2) * 1 + 1 * z.val = z.val; omega

theorem emb2 (t : Fin cfg0.N) (k : Fin 256) (q : Fin 128) :
    ((cfg0.win 2).blk t).view.emb (ix2 k q) = ix2 k q := by
  obtain ⟨-, -, -, -, e0, e1, -⟩ := idx t
  funext a; apply Fin.ext
  match a with
  | ⟨0, _⟩ => show win0_2.index t (0 : Fin 2) * 256 + 1 * k.val = k.val; omega
  | ⟨1, _⟩ => show win0_2.index t (1 : Fin 2) * 128 + 1 * q.val = q.val; omega

theorem emb3 (t : Fin cfg0.N) (p : Fin 5000) (q : Fin 128) :
    ((cfg0.win 3).blk t).view.emb (ix2 p q) = ix2 (row t p) q := by
  obtain ⟨-, -, -, -, -, -, e0, e1⟩ := idx t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-! ## The input tiles read off the arrays -/

theorem read0 (c : Dev nD) (t : Fin cfg0.N) (p : Fin 5000) (k : Fin 256) :
    iblk0 V c 0 t (ix2 p k) = V c main_arg0 (ix2 (row t p) k) :=
  congrArg (V c main_arg0) (emb0 t p k)

theorem read1 (c : Dev nD) (t : Fin cfg0.N) (p : Fin 5000) (z : Fin 1) :
    iblk0 V c 1 t (ix2 p z) = V c main_v12 (ix2 (row t p) z) :=
  congrArg (V c main_v12) (emb1 t p z)

theorem read2 (c : Dev nD) (t : Fin cfg0.N) (k : Fin 256) (q : Fin 128) :
    iblk0 V c 2 t (ix2 k q) = V c main_arg3 (ix2 k q) :=
  congrArg (V c main_arg3) (emb2 t k q)

/-! ## What a tile writes -/

/-- The body's value on any three tiles is their projection. -/
theorem pay_eq (x0 : Vec Ideal S5000x256 .f32) (x1 : Vec Ideal S5000x1 .f32) (x2 : Vec Ideal S256x128 .f32) :
    k0_pay1 x0 x1 x2 = LibGcn.proj (M := 5000) (K := 256) (N := 128) x0 x1 x2 := by
  unfold k0_pay1
  exact LibGcn.kernel_proj_eq dot_S5000x256_S256x128_S5000x128_1_0_0_1_n_n rfl x0 x1 x2 _ _ _ _

/-- Row `p` of the tiles' projection is row 5000·t + p of the arrays' projection. -/
theorem tile_proj (c : Dev nD) (t : Fin cfg0.N) (p : Fin 5000) (q : Fin 128) :
    LibGcn.proj (M := 5000) (K := 256) (N := 128) (iblk0 V c 0 t) (iblk0 V c 1 t) (iblk0 V c 2 t) (ix2 p q)
      = LibGcn.proj (M := 100000) (K := 256) (N := 128) (V c main_arg0) (V c main_v12) (V c main_arg3)
          (((cfg0.win 3).blk t).view.emb (ix2 p q)) := by
  rw [emb3, LibGcn.proj_apply, LibGcn.proj_apply]
  refine Finset.sum_congr rfl fun k _ => ?_
  rw [read0, read1, read2]

/-- What tile `t` writes back is block `t` of the projection of the arrays as the call finds them. -/
theorem flushed_eq (c : Dev nD) (t : Fin cfg0.N) :
    (dat0 V c).flushed 3 t = ((cfg0.win 3).blk t).view.read (Elt Ideal)
      (LibGcn.proj (M := 100000) (K := 256) (N := 128) (V c main_arg0) (V c main_v12) (V c main_arg3)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x128) hz]
  rw [pay_eq]
  funext j
  obtain ⟨p, q, rfl⟩ : ∃ (p : Fin 5000) (q : Fin 128), j = ix2 p q := ⟨j 0, j 1, eq_ix2 j⟩
  exact tile_proj V c t p q

/-! ## The tiles cover the array -/

theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v19).slice (win0_3.rect t)).set ↔ _
  rw [View.set_slice_whole, Rect.mem_set_unit]
  exact Iff.rfl

/-- Row `r` lies in tile `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  rw [mem_blk]
  obtain ⟨-, -, -, -, -, -, e0, e1⟩ := idx ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]
    show (i 0).val / 5000 * 5000 ≤ (i 0).val ∧ (i 0).val < (i 0).val / 5000 * 5000 + 5000
    omega
  | ⟨1, _⟩ =>
    show win0_3.index _ (1 : Fin 2) * 128 ≤ (i 1).val ∧ (i 1).val < win0_3.index _ (1 : Fin 2) * 128 + 128
    rw [e1]
    omega

/-! ## The array after the call -/

/-- After the call the result array is the projection of the features, the scale column and the weights as the call
    found them. -/
theorem final (c : Dev nD) :
    (dat0 V c).arrAt 3 cfg0.N
      = LibGcn.proj (M := 100000) (K := 256) (N := 128) (V c main_arg0) (V c main_v12) (V c main_arg3) :=
  (dat0 V c).arrAt_eq_of_cover 3 _ (fun t _ => flushed_eq V c t) cover

end Cert.KernelIdeal.Region0

end
-- ==== Proof.Region1.lean ====
/-
  The first scale-and-bias stretch with the maximum with zero, from tiles to the whole array.

  The call walks the 100000 nodes in 20 tiles of 5000 rows. At tile `t` the body reads rows 5000·t … 5000·t + 4999 of
  the summed edge messages (all 128 columns) and of the per-node scale column, and the one-row bias tile, and writes
  the same rows of the result: entry (r, j) ↦ `max (a r j · s r + b j) 0`. Row `r` of that depends on row `r` of the
  messages and of the scale only, so what tile `t` writes is rows 5000·t … of the stretch applied to the WHOLE arrays;
  the 20 tiles cover every row. The bias reaches the call as a one-row array; all that is used of it is that its row is
  a given bias vector `b`.
-/
import proofs.«158291_j30202210026006_1_alg».proof.Proof.Gen.KernelIdeal.Frame
import proofs.«158291_j30202210026006_1_alg».proof.Proof.LibGcn
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

-- the buffers' contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The grid has 20 tiles. -/
theorem tlt (t : Fin cfg1.N) : t.val < 20 := Nat.lt_of_lt_of_eq t.isLt N_1

/-- The block index of each window at tile `t`: the row-tiled windows (messages, scale, result) sit at block row `t`,
    the bias at block 0. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of tile `t` is row 5000·t + p of the array. -/
abbrev row (t : Fin cfg1.N) (p : Fin 5000) : Fin 100000 := ⟨t.val * 5000 + p.val, by have := tlt t; have := p.isLt; omega⟩

/-! ## Where a tile's entry sits in its array -/

theorem emb0 (t : Fin cfg1.N) (p : Fin 5000) (q : Fin 128) :
    ((cfg1.win 0).blk t).view.emb (ix2 p q) = ix2 (row t p) q := by
  obtain ⟨e0, e1, -⟩ := idx t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

theorem emb1 (t : Fin cfg1.N) (p : Fin 5000) (z : Fin 1) :
    ((cfg1.win 1).blk t).view.emb (ix2 p z) = ix2 (row t p) z := by
  obtain ⟨-, -, e0, e1, -⟩ := idx t
  funext a; apply Fin.ext
  match a with
  | ⟨0, _⟩ => show win1_1.index t (0 : Fin 2) * 5000 + 1 * p.val = t.val * 5000 + p.val; omega
  | ⟨1, _⟩ => show win1_1.index t (1 : Fin 2) * 1 + 1 * z.val = z.val; omega

theorem emb2 (t : Fin cfg1.N) (z : Fin 1) (q : Fin 128) :
    ((cfg1.win 2).blk t).view.emb (ix2 z q) = ix2 z q := by
  obtain ⟨-, -, -, -, e0, e1, -⟩ := idx t
  funext a; apply Fin.ext
  match a with
  | ⟨0, _⟩ => show win1_2.index t (0 : Fin 2) * 1 + 1 * z.val = z.val; omega
  | ⟨1, _⟩ => show win1_2.index t (1 : Fin 2) * 128 + 1 * q.val = q.val; omega

theorem emb3 (t : Fin cfg1.N) (p : Fin 5000) (q : Fin 128) :
    ((cfg1.win 3).blk t).view.emb (ix2 p q) = ix2 (row t p) q := by
  obtain ⟨-, -, -, -, -, -, e0, e1⟩ := idx t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-! ## The input tiles read off the arrays -/

theorem read0 (c : Dev nD) (t : Fin cfg1.N) (p : Fin 5000) (q : Fin 128) :
    iblk1 V c 0 t (ix2 p q) = V c main_v29 (ix2 (row t p) q) :=
  congrArg (V c main_v29) (emb0 t p q)

theorem read1 (c : Dev nD) (t : Fin cfg1.N) (p : Fin 5000) (z : Fin 1) :
    iblk1 V c 1 t (ix2 p z) = V c main_v18 (ix2 (row t p) z) :=
  congrArg (V c main_v18) (emb1 t p z)

theorem read2 (c : Dev nD) (t : Fin cfg1.N) (z : Fin 1) (q : Fin 128) :
    iblk1 V c 2 t (ix2 z q) = V c main_v30 (ix2 z q) :=
  congrArg (V c main_v30) (emb2 t z q)

/-! ## What a tile writes -/

/-- The body's value on any three tiles, the third a one-row tile holding `b`, is the stretch applied to the first two
    and `b`. -/
theorem pay_eq (x0 : Vec Ideal S5000x128 .f32) (x1 : Vec Ideal S5000x1 .f32) (x2 : Vec Ideal S1x128 .f32)
    (b : FVec Ideal ⟨1, ![128]⟩ .f32) (hb : ∀ j : Fin 128, x2 (ix2 (0 : Fin 1) j) = b (ix1 j)) :
    k1_pay1 x0 x1 x2 = LibGcn.scaleBiasRelu (M := 5000) (N := 128) x0 x1 b := by
  unfold k1_pay1
  exact LibGcn.kernel_scaleBiasRelu_eq x0 x1 x2 b hb _ _ _ _ _

/-- Row `p` of the stretch on the tiles is row 5000·t + p of the stretch on the arrays. -/
theorem tile_eq (c : Dev nD) (t : Fin cfg1.N) (b : FVec Ideal ⟨1, ![128]⟩ .f32) (p : Fin 5000) (q : Fin 128) :
    LibGcn.scaleBiasRelu (M := 5000) (N := 128) (iblk1 V c 0 t) (iblk1 V c 1 t) b (ix2 p q)
      = LibGcn.scaleBiasRelu (M := 100000) (N := 128) (V c main_v29) (V c main_v18) b
          (((cfg1.win 3).blk t).view.emb (ix2 p q)) := by
  rw [emb3, LibGcn.scaleBiasRelu_apply, LibGcn.scaleBiasRelu_apply, read0, read1]

/-- What tile `t` writes back is block `t` of the stretch applied to the arrays as the call finds them. -/
theorem flushed_eq (c : Dev nD) (b : FVec Ideal ⟨1, ![128]⟩ .f32) (hb : ∀ j : Fin 128, V c main_v30 (ix2 (0 : Fin 1) j) = b (ix1 j))
    (t : Fin cfg1.N) :
    (dat1 V c).flushed 3 t = ((cfg1.win 3).blk t).view.read (Elt Ideal)
      (LibGcn.scaleBiasRelu (M := 100000) (N := 128) (V c main_v29) (V c main_v18) b) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  rw [pay_eq (iblk1 V c 0 t) (iblk1 V c 1 t) (iblk1 V c 2 t) b (fun j => (read2 V c t 0 j).trans (hb j))]
  funext j
  obtain ⟨p, q, rfl⟩ : ∃ (p : Fin 5000) (q : Fin 128), j = ix2 p q := ⟨j 0, j 1, eq_ix2 j⟩
  exact tile_eq V c t b p q

/-! ## The tiles cover the array -/

theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v31).slice (win1_3.rect t)).set ↔ _
  rw [View.set_slice_whole, Rect.mem_set_unit]
  exact Iff.rfl

/-- Row `r` lies in tile `r / 5000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk]
  obtain ⟨-, -, -, -, -, -, e0, e1⟩ := idx ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]
    show (i 0).val / 5000 * 5000 ≤ (i 0).val ∧ (i 0).val < (i 0).val / 5000 * 5000 + 5000
    omega
  | ⟨1, _⟩ =>
    show win1_3.index _ (1 : Fin 2) * 128 ≤ (i 1).val ∧ (i 1).val < win1_3.index _ (1 : Fin 2) * 128 + 128
    rw [e1]
    omega

/-! ## The array after the call -/

/-- After the call the result array is the stretch applied to the messages, the scale column and the bias vector. -/
theorem final (c : Dev nD) (b : FVec Ideal ⟨1, ![128]⟩ .f32) (hb : ∀ j : Fin 128, V c main_v30 (ix2 (0 : Fin 1) j) = b (ix1 j)) :
    (dat1 V c).arrAt 3 cfg1.N
      = LibGcn.scaleBiasRelu (M := 100000) (N := 128) (V c main_v29) (V c main_v18) b :=
  (dat1 V c).arrAt_eq_of_cover 3 _ (fun t _ => flushed_eq V c b hb t) cover

end Cert.KernelIdeal.Region1

end
-- ==== Proof.Region2.lean ====
/-
  The second projection, from tiles to the whole array.

  The call walks the 100000 nodes in 20 tiles of 5000 rows. At tile `t` the body reads rows 5000·t … 5000·t + 4999 of
  the features (all 128 columns), the same rows of the per-node scale column, and the whole 128 × 40 weight matrix,
  and writes rows 5000·t … of the 40-column result. A projection's row `r` depends on row `r` of the features and of
  the scale only, so what tile `t` writes is rows 5000·t … of the projection of the WHOLE arrays; the 20 tiles
  cover every row, so after the call the result array is that projection.
-/
import proofs.«158291_j30202210026006_1_alg».proof.Proof.Gen.KernelIdeal.Frame
import proofs.«158291_j30202210026006_1_alg».proof.Proof.LibGcn
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

-- the buffers' contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The grid has 20 tiles. -/
theorem tlt (t : Fin cfg2.N) : t.val < 20 := Nat.lt_of_lt_of_eq t.isLt N_2

/-- The block index of each window at tile `t`: the row-tiled windows (features, scale, result) sit at block row `t`,
    the weights at block 0. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of tile `t` is row 5000·t + p of the array. -/
abbrev row (t : Fin cfg2.N) (p : Fin 5000) : Fin 100000 := ⟨t.val * 5000 + p.val, by have := tlt t; have := p.isLt; omega⟩

/-! ## Where a tile's entry sits in its array -/

theorem emb0 (t : Fin cfg2.N) (p : Fin 5000) (k : Fin 128) :
    ((cfg2.win 0).blk t).view.emb (ix2 p k) = ix2 (row t p) k := by
  obtain ⟨e0, e1, -⟩ := idx t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem emb1 (t : Fin cfg2.N) (p : Fin 5000) (z : Fin 1) :
    ((cfg2.win 1).blk t).view.emb (ix2 p z) = ix2 (row t p) z := by
  obtain ⟨-, -, e0, e1, -⟩ := idx t
  funext a; apply Fin.ext
  match a with
  | ⟨0, _⟩ => show win2_1.index t (0 : Fin 2) * 5000 + 1 * p.val = t.val * 5000 + p.val; omega
  | ⟨1, _⟩ => show win2_1.index t (1 : Fin 2) * 1 + 1 * z.val = z.val; omega

theorem emb2 (t : Fin cfg2.N) (k : Fin 128) (q : Fin 40) :
    ((cfg2.win 2).blk t).view.emb (ix2 k q) = ix2 k q := by
  obtain ⟨-, -, -, -, e0, e1, -⟩ := idx t
  funext a; apply Fin.ext
  match a with
  | ⟨0, _⟩ => show win2_2.index t (0 : Fin 2) * 128 + 1 * k.val = k.val; omega
  | ⟨1, _⟩ => show win2_2.index t (1 : Fin 2) * 40 + 1 * q.val = q.val; omega

theorem emb3 (t : Fin cfg2.N) (p : Fin 5000) (q : Fin 40) :
    ((cfg2.win 3).blk t).view.emb (ix2 p q) = ix2 (row t p) q := by
  obtain ⟨-, -, -, -, -, -, e0, e1⟩ := idx t
  funext a; apply Fin.ext
  match a with
  | ⟨0, _⟩ => show win2_3.index t (0 : Fin 2) * 5000 + 1 * p.val = t.val * 5000 + p.val; omega
  | ⟨1, _⟩ => show win2_3.index t (1 : Fin 2) * 40 + 1 * q.val = q.val; omega

/-! ## The input tiles read off the arrays -/

theorem read0 (c : Dev nD) (t : Fin cfg2.N) (p : Fin 5000) (k : Fin 128) :
    iblk2 V c 0 t (ix2 p k) = V c main_v31 (ix2 (row t p) k) :=
  congrArg (V c main_v31) (emb0 t p k)

theorem read1 (c : Dev nD) (t : Fin cfg2.N) (p : Fin 5000) (z : Fin 1) :
    iblk2 V c 1 t (ix2 p z) = V c main_v12 (ix2 (row t p) z) :=
  congrArg (V c main_v12) (emb1 t p z)

theorem read2 (c : Dev nD) (t : Fin cfg2.N) (k : Fin 128) (q : Fin 40) :
    iblk2 V c 2 t (ix2 k q) = V c main_arg5 (ix2 k q) :=
  congrArg (V c main_arg5) (emb2 t k q)

/-! ## What a tile writes -/

/-- The body's value on any three tiles is their projection. -/
theorem pay_eq (x0 : Vec Ideal S5000x128 .f32) (x1 : Vec Ideal S5000x1 .f32) (x2 : Vec Ideal S128x40 .f32) :
    k2_pay1 x0 x1 x2 = LibGcn.proj (M := 5000) (K := 128) (N := 40) x0 x1 x2 := by
  unfold k2_pay1
  exact LibGcn.kernel_proj_cast_eq dot_S5000x128_S128x40_S5000x40_1_0_0_1_n_n rfl x0 x1 x2 _ _ _ _ _

/-- Row `p` of the tiles' projection is row 5000·t + p of the arrays' projection. -/
theorem tile_proj (c : Dev nD) (t : Fin cfg2.N) (p : Fin 5000) (q : Fin 40) :
    LibGcn.proj (M := 5000) (K := 128) (N := 40) (iblk2 V c 0 t) (iblk2 V c 1 t) (iblk2 V c 2 t) (ix2 p q)
      = LibGcn.proj (M := 100000) (K := 128) (N := 40) (V c main_v31) (V c main_v12) (V c main_arg5)
          (((cfg2.win 3).blk t).view.emb (ix2 p q)) := by
  rw [emb3, LibGcn.proj_apply, LibGcn.proj_apply]
  refine Finset.sum_congr rfl fun k _ => ?_
  rw [read0, read1, read2]

/-- What tile `t` writes back is block `t` of the projection of the arrays as the call finds them. -/
theorem flushed_eq (c : Dev nD) (t : Fin cfg2.N) :
    (dat2 V c).flushed 3 t = ((cfg2.win 3).blk t).view.read (Elt Ideal)
      (LibGcn.proj (M := 100000) (K := 128) (N := 40) (V c main_v31) (V c main_v12) (V c main_arg5)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128x40) hz]
  rw [pay_eq]
  funext j
  obtain ⟨p, q, rfl⟩ : ∃ (p : Fin 5000) (q : Fin 40), j = ix2 p q := ⟨j 0, j 1, eq_ix2 j⟩
  exact tile_proj V c t p q

/-! ## The tiles cover the array -/

theorem mem_blk (t : Fin cfg2.N) (i : S100000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v32).slice (win2_3.rect t)).set ↔ _
  rw [View.set_slice_whole, Rect.mem_set_unit]
  exact Iff.rfl

/-- Row `r` lies in tile `r / 5000`. -/
theorem cover (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_3 _, ?_⟩
  rw [mem_blk]
  obtain ⟨-, -, -, -, -, -, e0, e1⟩ := idx ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e0]
    show (i 0).val / 5000 * 5000 ≤ (i 0).val ∧ (i 0).val < (i 0).val / 5000 * 5000 + 5000
    omega
  | ⟨1, _⟩ =>
    show win2_3.index _ (1 : Fin 2) * 40 ≤ (i 1).val ∧ (i 1).val < win2_3.index _ (1 : Fin 2) * 40 + 40
    rw [e1]
    omega

/-! ## The array after the call -/

/-- After the call the result array is the projection of the features, the scale column and the weights as the call
    found them. -/
theorem final (c : Dev nD) :
    (dat2 V c).arrAt 3 cfg2.N
      = LibGcn.proj (M := 100000) (K := 128) (N := 40) (V c main_v31) (V c main_v12) (V c main_arg5) :=
  (dat2 V c).arrAt_eq_of_cover 3 _ (fun t _ => flushed_eq V c t) cover

end Cert.KernelIdeal.Region2

end
-- ==== Proof.Region3.lean ====
/-
  The last scale-and-bias stretch, from tiles to the whole array.

  The call walks the 100000 nodes in 20 tiles of 5000 rows. At tile `t` the body reads rows 5000·t … 5000·t + 4999 of
  the summed edge messages (all 40 columns) and of the per-node scale column, and the one-row bias tile, and writes
  the same rows of the result: entry (r, j) ↦ `a r j · s r + b j`. Row `r` of that depends on row `r` of the
  messages and of the scale only, so what tile `t` writes is rows 5000·t … of the stretch applied to the WHOLE arrays;
  the 20 tiles cover every row. The bias reaches the call as a one-row array; all that is used of it is that its row is
  a given bias vector `b`.
-/
import proofs.«158291_j30202210026006_1_alg».proof.Proof.Gen.KernelIdeal.Frame
import proofs.«158291_j30202210026006_1_alg».proof.Proof.LibGcn
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

-- the buffers' contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The grid has 20 tiles. -/
theorem tlt (t : Fin cfg3.N) : t.val < 20 := Nat.lt_of_lt_of_eq t.isLt N_3

/-- The block index of each window at tile `t`: the row-tiled windows (messages, scale, result) sit at block row `t`,
    the bias at block 0. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of tile `t` is row 5000·t + p of the array. -/
abbrev row (t : Fin cfg3.N) (p : Fin 5000) : Fin 100000 := ⟨t.val * 5000 + p.val, by have := tlt t; have := p.isLt; omega⟩

/-! ## Where a tile's entry sits in its array -/

theorem emb0 (t : Fin cfg3.N) (p : Fin 5000) (q : Fin 40) :
    ((cfg3.win 0).blk t).view.emb (ix2 p q) = ix2 (row t p) q := by
  obtain ⟨e0, e1, -⟩ := idx t
  funext a; apply Fin.ext
  match a with
  | ⟨0, _⟩ => show win3_0.index t (0 : Fin 2) * 5000 + 1 * p.val = t.val * 5000 + p.val; omega
  | ⟨1, _⟩ => show win3_0.index t (1 : Fin 2) * 40 + 1 * q.val = q.val; omega

theorem emb1 (t : Fin cfg3.N) (p : Fin 5000) (z : Fin 1) :
    ((cfg3.win 1).blk t).view.emb (ix2 p z) = ix2 (row t p) z := by
  obtain ⟨-, -, e0, e1, -⟩ := idx t
  funext a; apply Fin.ext
  match a with
  | ⟨0, _⟩ => show win3_1.index t (0 : Fin 2) * 5000 + 1 * p.val = t.val * 5000 + p.val; omega
  | ⟨1, _⟩ => show win3_1.index t (1 : Fin 2) * 1 + 1 * z.val = z.val; omega

theorem emb2 (t : Fin cfg3.N) (z : Fin 1) (q : Fin 40) :
    ((cfg3.win 2).blk t).view.emb (ix2 z q) = ix2 z q := by
  obtain ⟨-, -, -, -, e0, e1, -⟩ := idx t
  funext a; apply Fin.ext
  match a with
  | ⟨0, _⟩ => show win3_2.index t (0 : Fin 2) * 1 + 1 * z.val = z.val; omega
  | ⟨1, _⟩ => show win3_2.index t (1 : Fin 2) * 40 + 1 * q.val = q.val; omega

theorem emb3 (t : Fin cfg3.N) (p : Fin 5000) (q : Fin 40) :
    ((cfg3.win 3).blk t).view.emb (ix2 p q) = ix2 (row t p) q := by
  obtain ⟨-, -, -, -, -, -, e0, e1⟩ := idx t
  funext a; apply Fin.ext
  match a with
  | ⟨0, _⟩ => show win3_3.index t (0 : Fin 2) * 5000 + 1 * p.val = t.val * 5000 + p.val; omega
  | ⟨1, _⟩ => show win3_3.index t (1 : Fin 2) * 40 + 1 * q.val = q.val; omega

/-! ## The input tiles read off the arrays -/

theorem read0 (c : Dev nD) (t : Fin cfg3.N) (p : Fin 5000) (q : Fin 40) :
    iblk3 V c 0 t (ix2 p q) = V c main_v42 (ix2 (row t p) q) :=
  congrArg (V c main_v42) (emb0 t p q)

theorem read1 (c : Dev nD) (t : Fin cfg3.N) (p : Fin 5000) (z : Fin 1) :
    iblk3 V c 1 t (ix2 p z) = V c main_v18 (ix2 (row t p) z) :=
  congrArg (V c main_v18) (emb1 t p z)

theorem read2 (c : Dev nD) (t : Fin cfg3.N) (z : Fin 1) (q : Fin 40) :
    iblk3 V c 2 t (ix2 z q) = V c main_v43 (ix2 z q) :=
  congrArg (V c main_v43) (emb2 t z q)

/-! ## What a tile writes -/

/-- The body's value on any three tiles, the third a one-row tile holding `b`, is the stretch applied to the first two
    and `b`. -/
theorem pay_eq (x0 : Vec Ideal S5000x40 .f32) (x1 : Vec Ideal S5000x1 .f32) (x2 : Vec Ideal S1x40 .f32)
    (b : FVec Ideal ⟨1, ![40]⟩ .f32) (hb : ∀ j : Fin 40, x2 (ix2 (0 : Fin 1) j) = b (ix1 j)) :
    k3_pay1 x0 x1 x2 = LibGcn.scaleBias (M := 5000) (N := 40) x0 x1 b := by
  unfold k3_pay1
  exact LibGcn.kernel_scaleBias_eq x0 x1 x2 b hb _ _ _ _ _

/-- Row `p` of the stretch on the tiles is row 5000·t + p of the stretch on the arrays. -/
theorem tile_eq (c : Dev nD) (t : Fin cfg3.N) (b : FVec Ideal ⟨1, ![40]⟩ .f32) (p : Fin 5000) (q : Fin 40) :
    LibGcn.scaleBias (M := 5000) (N := 40) (iblk3 V c 0 t) (iblk3 V c 1 t) b (ix2 p q)
      = LibGcn.scaleBias (M := 100000) (N := 40) (V c main_v42) (V c main_v18) b
          (((cfg3.win 3).blk t).view.emb (ix2 p q)) := by
  rw [emb3, LibGcn.scaleBias_apply, LibGcn.scaleBias_apply, read0, read1]

/-- What tile `t` writes back is block `t` of the stretch applied to the arrays as the call finds them. -/
theorem flushed_eq (c : Dev nD) (b : FVec Ideal ⟨1, ![40]⟩ .f32) (hb : ∀ j : Fin 40, V c main_v43 (ix2 (0 : Fin 1) j) = b (ix1 j))
    (t : Fin cfg3.N) :
    (dat3 V c).flushed 3 t = ((cfg3.win 3).blk t).view.read (Elt Ideal)
      (LibGcn.scaleBias (M := 100000) (N := 40) (V c main_v42) (V c main_v18) b) := by
  show (cfg3.win 3).cut (grid3.coords t) ((dat3 V c).after 3 t) = _
  rw [after3_3]
  unfold out3_3
  rw [View.canon_unit_zero hz]
  simp only [View.ld_unit_zero (S := S5000x40) hz, View.ld_unit_zero (S := S5000x1) hz, View.ld_unit_zero (S := S1x40) hz]
  rw [pay_eq (iblk3 V c 0 t) (iblk3 V c 1 t) (iblk3 V c 2 t) b (fun j => (read2 V c t 0 j).trans (hb j))]
  funext j
  obtain ⟨p, q, rfl⟩ : ∃ (p : Fin 5000) (q : Fin 40), j = ix2 p q := ⟨j 0, j 1, eq_ix2 j⟩
  exact tile_eq V c t b p q

/-! ## The tiles cover the array -/

theorem mem_blk (t : Fin cfg3.N) (i : S100000x40.Idx) :
    i ∈ ((cfg3.win 3).blk t).view.set ↔ ∀ a : Fin 2, win3_3.index t a * S5000x40.size a ≤ (i a).val
      ∧ (i a).val < win3_3.index t a * S5000x40.size a + S5000x40.size a := by
  show i ∈ ((View.whole main_v44).slice (win3_3.rect t)).set ↔ _
  rw [View.set_slice_whole, Rect.mem_set_unit]
  exact Iff.rfl

/-- Row `r` lies in tile `r / 5000`. -/
theorem cover (i : S100000x40.Idx) :
    ∃ t : Fin cfg3.N, (cfg3.win 3).flush t = true ∧ i ∈ ((cfg3.win 3).blk t).view.set := by
  have hi0 : (i 0).val < 100000 := (i 0).isLt
  have hi1 : (i 1).val < 40 := (i 1).isLt
  have hN : cfg3.N = 20 := N_3
  refine ⟨⟨(i 0).val / 5000, by rw [hN]; omega⟩, flush3_3 _, ?_⟩
  rw [mem_blk]
  obtain ⟨-, -, -, -, -, -, e0, e1⟩ := idx ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e0]
    show (i 0).val / 5000 * 5000 ≤ (i 0).val ∧ (i 0).val < (i 0).val / 5000 * 5000 + 5000
    omega
  | ⟨1, _⟩ =>
    show win3_3.index _ (1 : Fin 2) * 40 ≤ (i 1).val ∧ (i 1).val < win3_3.index _ (1 : Fin 2) * 40 + 40
    rw [e1]
    omega

/-! ## The array after the call -/

/-- After the call the result array is the stretch applied to the messages, the scale column and the bias vector. -/
theorem final (c : Dev nD) (b : FVec Ideal ⟨1, ![40]⟩ .f32) (hb : ∀ j : Fin 40, V c main_v43 (ix2 (0 : Fin 1) j) = b (ix1 j)) :
    (dat3 V c).arrAt 3 cfg3.N
      = LibGcn.scaleBias (M := 100000) (N := 40) (V c main_v42) (V c main_v18) b :=
  (dat3 V c).arrAt_eq_of_cover 3 _ (fun t _ => flushed_eq V c b hb t) cover

end Cert.KernelIdeal.Region3

end
-- ==== Proof.Chain.lean ====
/-
  The program's buffers at each boundary, as the array program's own stages of the arguments.

  Between the launch and the return the program alternates stretches of array operations with four tiled calls.
  Reading forward: the opening stretches compute the two degree-scale columns from the edge lists exactly as the
  array program does; the first call leaves the projection of the features; the next stretch gathers its rows along
  the source list and sums them along the destination list, again the array program's own operations; the second
  call scales by the destination column, adds the bias and takes the maximum with zero; the third call projects
  that; the last stretch gathers and sums once more; the fourth call scales and adds the last bias. At every boundary
  the buffer a later step reads holds the array program's stage of the same name applied to the launch arguments:
  for a stretch because it is the same operations on equal operands, for a call by the tiles-to-array lemma and the
  two spellings of the dense stretch. A buffer nothing in between writes is carried across unchanged.
-/
import proofs.«158291_j30202210026006_1_alg».proof.Proof.Gen.KernelIdeal.Frame
import proofs.«158291_j30202210026006_1_alg».proof.Proof.RefRead
import proofs.«158291_j30202210026006_1_alg».proof.Proof.LibGcn
import proofs.«158291_j30202210026006_1_alg».proof.Proof.Region0
import proofs.«158291_j30202210026006_1_alg».proof.Proof.Region1
import proofs.«158291_j30202210026006_1_alg».proof.Proof.Region2
import proofs.«158291_j30202210026006_1_alg».proof.Proof.Region3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx
open Idealize.ShloMosaic.Pipeline (Dat)

/-- No operation of a literal stretch writes a given literal buffer. -/
local macro "not_written" l:ident : tactic =>
  `(tactic| exact List.forall_iff_forall_mem.mp (by
      simp only [$l:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## The first call's entry, for any float family -/

section Opening

variable {F : FTy → Type} [FloatOps F]
variable (m : (ℓ : Loc nD τ sig) → Buf (Elt F) ℓ) (ρ : Dev nD → PrngReg)

/-- A buffer none of the five opening stretches writes is, at the first call's entry, as launched. -/
theorem W5_keep (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes)
    (h3 : ∀ op ∈ (hostOps0_3 : List (HloOp τ sig (Elt F))), Proc.devRef .tc b ∉ op.writes)
    (h4 : ∀ op ∈ (hostOps0_4 : List (HloOp τ sig (Elt F))), Proc.devRef .tc b ∉ op.writes) :
    W5 m ρ c (Proc.devRef .tc b) = m ((c : Thread nD τ).loc b) :=
  (StableHlo.after_of_forall_not_mem hostOps0_4 (W4 m ρ c) h4).trans
    ((StableHlo.after_of_forall_not_mem hostOps0_3 (W3 m ρ c) h3).trans
      ((StableHlo.after_of_forall_not_mem hostOps0_2 (W2 m ρ c) h2).trans
        ((StableHlo.after_of_forall_not_mem hostOps0_1 (W1 m ρ c) h1).trans
          (StableHlo.after_of_forall_not_mem hostOps0 (W0 m ρ c) h0))))

theorem W5_arg0 (c : Dev nD) : W5 m ρ c (Proc.devRef .tc main_arg0) = m ((c : Thread nD τ).loc main_arg0) :=
  W5_keep m ρ c main_arg0 (by not_written hostOps0) (by not_written hostOps0_1) (by not_written hostOps0_2)
    (by not_written hostOps0_3) (by not_written hostOps0_4)
theorem W5_arg1 (c : Dev nD) : W5 m ρ c (Proc.devRef .tc main_arg1) = m ((c : Thread nD τ).loc main_arg1) :=
  W5_keep m ρ c main_arg1 (by not_written hostOps0) (by not_written hostOps0_1) (by not_written hostOps0_2)
    (by not_written hostOps0_3) (by not_written hostOps0_4)
theorem W5_arg2 (c : Dev nD) : W5 m ρ c (Proc.devRef .tc main_arg2) = m ((c : Thread nD τ).loc main_arg2) :=
  W5_keep m ρ c main_arg2 (by not_written hostOps0) (by not_written hostOps0_1) (by not_written hostOps0_2)
    (by not_written hostOps0_3) (by not_written hostOps0_4)
theorem W5_arg3 (c : Dev nD) : W5 m ρ c (Proc.devRef .tc main_arg3) = m ((c : Thread nD τ).loc main_arg3) :=
  W5_keep m ρ c main_arg3 (by not_written hostOps0) (by not_written hostOps0_1) (by not_written hostOps0_2)
    (by not_written hostOps0_3) (by not_written hostOps0_4)
theorem W5_arg4 (c : Dev nD) : W5 m ρ c (Proc.devRef .tc main_arg4) = m ((c : Thread nD τ).loc main_arg4) :=
  W5_keep m ρ c main_arg4 (by not_written hostOps0) (by not_written hostOps0_1) (by not_written hostOps0_2)
    (by not_written hostOps0_3) (by not_written hostOps0_4)
theorem W5_arg5 (c : Dev nD) : W5 m ρ c (Proc.devRef .tc main_arg5) = m ((c : Thread nD τ).loc main_arg5) :=
  W5_keep m ρ c main_arg5 (by not_written hostOps0) (by not_written hostOps0_1) (by not_written hostOps0_2)
    (by not_written hostOps0_3) (by not_written hostOps0_4)
theorem W5_arg6 (c : Dev nD) : W5 m ρ c (Proc.devRef .tc main_arg6) = m ((c : Thread nD τ).loc main_arg6) :=
  W5_keep m ρ c main_arg6 (by not_written hostOps0) (by not_written hostOps0_1) (by not_written hostOps0_2)
    (by not_written hostOps0_3) (by not_written hostOps0_4)

set_option maxHeartbeats 2000000 in
/-- The source-degree scale column at the first call's entry is the array program's stage of the source list. -/
theorem W5_v12 (c : Dev nD) :
    W5 m ρ c (Proc.devRef .tc main_v12) = Cert.ReferenceIdeal.ReadP.val_main_v12 (F := F) (m ((c : Thread nD τ).loc main_arg1)) := by
  show StableHlo.after hostOps0_4 (StableHlo.after hostOps0_3 (StableHlo.after hostOps0_2 (StableHlo.after hostOps0_1
    (StableHlo.after hostOps0 (W0 m ρ c))))) (Proc.devRef .tc main_v12) = _
  simp only [hostOps0_4, hostOps0_3, hostOps0_2, hostOps0_1, hostOps0]
  after_results
  rfl

set_option maxHeartbeats 2000000 in
/-- The destination-degree scale column at the first call's entry is the array program's stage of the destination list. -/
theorem W5_v18 (c : Dev nD) :
    W5 m ρ c (Proc.devRef .tc main_v18) = Cert.ReferenceIdeal.ReadP.val_main_v18 (F := F) (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v18) = _
  simp only [hostOps0_4, hostOps0_3, hostOps0_2, hostOps0_1, hostOps0]
  after_results
  rfl

end Opening

/-! ## From the first call on, on the extended reals -/

variable (m : (ℓ : Loc nD τ sig) → Buf (Elt Ideal) ℓ) (ρ : Dev nD → PrngReg)

/-- Argument 0 as launched. -/
abbrev A0 (c : Dev nD) := m ((c : Thread nD τ).loc main_arg0)
/-- Argument 1 as launched. -/
abbrev A1 (c : Dev nD) := m ((c : Thread nD τ).loc main_arg1)
/-- Argument 2 as launched. -/
abbrev A2 (c : Dev nD) := m ((c : Thread nD τ).loc main_arg2)
/-- Argument 3 as launched. -/
abbrev A3 (c : Dev nD) := m ((c : Thread nD τ).loc main_arg3)
/-- Argument 4 as launched. -/
abbrev A4 (c : Dev nD) := m ((c : Thread nD τ).loc main_arg4)
/-- Argument 5 as launched. -/
abbrev A5 (c : Dev nD) := m ((c : Thread nD τ).loc main_arg5)
/-- Argument 6 as launched. -/
abbrev A6 (c : Dev nD) := m ((c : Thread nD τ).loc main_arg6)

/-! ### After the first call -/

/-- The first call leaves the array program's projection stage. -/
theorem W6_v19 (c : Dev nD) :
    W6 m ρ c (Proc.devRef .tc main_v19) = Cert.ReferenceIdeal.ReadP.val_main_v21 (F := Ideal) (A0 m c) (A1 m c) (A3 m c) := by
  refine (W6_arr m ρ c 3).trans ?_
  refine (Region0.final (V5 m ρ) c).trans ?_
  rw [show V5 m ρ c main_arg0 = A0 m c from W5_arg0 m ρ c,
    show V5 m ρ c main_v12 = Cert.ReferenceIdeal.ReadP.val_main_v12 (F := Ideal) (A1 m c) from W5_v12 m ρ c,
    show V5 m ρ c main_arg3 = A3 m c from W5_arg3 m ρ c]
  exact (LibGcn.host_proj_eq _ rfl _ _ _ _).symm

theorem W6_arg1 (c : Dev nD) : W6 m ρ c (Proc.devRef .tc main_arg1) = A1 m c :=
  (W6_of_ne m ρ c main_arg1 (by decide)).trans (W5_arg1 m ρ c)
theorem W6_arg2 (c : Dev nD) : W6 m ρ c (Proc.devRef .tc main_arg2) = A2 m c :=
  (W6_of_ne m ρ c main_arg2 (by decide)).trans (W5_arg2 m ρ c)
theorem W6_arg4 (c : Dev nD) : W6 m ρ c (Proc.devRef .tc main_arg4) = A4 m c :=
  (W6_of_ne m ρ c main_arg4 (by decide)).trans (W5_arg4 m ρ c)
theorem W6_arg5 (c : Dev nD) : W6 m ρ c (Proc.devRef .tc main_arg5) = A5 m c :=
  (W6_of_ne m ρ c main_arg5 (by decide)).trans (W5_arg5 m ρ c)
theorem W6_arg6 (c : Dev nD) : W6 m ρ c (Proc.devRef .tc main_arg6) = A6 m c :=
  (W6_of_ne m ρ c main_arg6 (by decide)).trans (W5_arg6 m ρ c)
theorem W6_v18 (c : Dev nD) : W6 m ρ c (Proc.devRef .tc main_v18) = Cert.ReferenceIdeal.ReadP.val_main_v18 (F := Ideal) (A2 m c) :=
  (W6_of_ne m ρ c main_v18 (by decide)).trans (W5_v18 m ρ c)
/-- The first call reads the source scale column through an input window and leaves it as it was. -/
theorem W6_v12 (c : Dev nD) : W6 m ρ c (Proc.devRef .tc main_v12) = Cert.ReferenceIdeal.ReadP.val_main_v12 (F := Ideal) (A1 m c) :=
  ((W6_arr m ρ c 1).trans (((dat0 (V5 m ρ) c).arrAt_in 1 rfl _).trans (A_eq0 (V5 m ρ) c 1))).trans (W5_v12 m ρ c)

/-! ### After the first gather-and-sum stretch -/

set_option maxHeartbeats 2000000 in
/-- The stretch gathers the projection's rows along the source list and sums them along the destination list: the
    array program's stage. -/
theorem W7_v29 (c : Dev nD) :
    W7 m ρ c (Proc.devRef .tc main_v29) = Cert.ReferenceIdeal.ReadP.val_main_v31 (F := Ideal) (A0 m c) (A1 m c) (A2 m c) (A3 m c) := by
  show StableHlo.after hostOps1 (W6 m ρ c) (Proc.devRef .tc main_v29) = _
  simp only [hostOps1]
  after_results
  rw [W6_v19 m ρ c, W6_arg1 m ρ c, W6_arg2 m ρ c]
  rfl

set_option maxHeartbeats 2000000 in
/-- The first bias reaches the second call as a one-row array whose row is the bias vector. -/
theorem V7_v30 (c : Dev nD) (j : Fin 128) : V7 m ρ c main_v30 (ix2 (0 : Fin 1) j) = A4 m c (ix1 j) := by
  show StableHlo.after hostOps1 (W6 m ρ c) (Proc.devRef .tc main_v30) (ix2 (0 : Fin 1) j) = _
  simp only [hostOps1]
  after_results
  rw [W6_arg4 m ρ c]
  exact LibGcn.shapeCast_vec_row_apply _ _ j

theorem W7_v18 (c : Dev nD) : W7 m ρ c (Proc.devRef .tc main_v18) = Cert.ReferenceIdeal.ReadP.val_main_v18 (F := Ideal) (A2 m c) :=
  (StableHlo.after_of_forall_not_mem hostOps1 (W6 m ρ c) (by not_written hostOps1)).trans (W6_v18 m ρ c)
theorem W7_v12 (c : Dev nD) : W7 m ρ c (Proc.devRef .tc main_v12) = Cert.ReferenceIdeal.ReadP.val_main_v12 (F := Ideal) (A1 m c) :=
  (StableHlo.after_of_forall_not_mem hostOps1 (W6 m ρ c) (by not_written hostOps1)).trans (W6_v12 m ρ c)
theorem W7_arg1 (c : Dev nD) : W7 m ρ c (Proc.devRef .tc main_arg1) = A1 m c :=
  (StableHlo.after_of_forall_not_mem hostOps1 (W6 m ρ c) (by not_written hostOps1)).trans (W6_arg1 m ρ c)
theorem W7_arg2 (c : Dev nD) : W7 m ρ c (Proc.devRef .tc main_arg2) = A2 m c :=
  (StableHlo.after_of_forall_not_mem hostOps1 (W6 m ρ c) (by not_written hostOps1)).trans (W6_arg2 m ρ c)
theorem W7_arg5 (c : Dev nD) : W7 m ρ c (Proc.devRef .tc main_arg5) = A5 m c :=
  (StableHlo.after_of_forall_not_mem hostOps1 (W6 m ρ c) (by not_written hostOps1)).trans (W6_arg5 m ρ c)
theorem W7_arg6 (c : Dev nD) : W7 m ρ c (Proc.devRef .tc main_arg6) = A6 m c :=
  (StableHlo.after_of_forall_not_mem hostOps1 (W6 m ρ c) (by not_written hostOps1)).trans (W6_arg6 m ρ c)

/-! ### After the second call -/

/-- The second call leaves the array program's scaled, biased and clamped stage. -/
theorem W8_v31 (c : Dev nD) :
    W8 m ρ c (Proc.devRef .tc main_v31)
      = Cert.ReferenceIdeal.ReadP.val_main_v37 (F := Ideal) (A0 m c) (A1 m c) (A2 m c) (A3 m c) (A4 m c) := by
  refine (W8_arr m ρ c 3).trans ?_
  refine (Region1.final (V7 m ρ) c (A4 m c) (V7_v30 m ρ c)).trans ?_
  rw [show V7 m ρ c main_v29 = Cert.ReferenceIdeal.ReadP.val_main_v31 (F := Ideal) (A0 m c) (A1 m c) (A2 m c) (A3 m c) from W7_v29 m ρ c,
    show V7 m ρ c main_v18 = Cert.ReferenceIdeal.ReadP.val_main_v18 (F := Ideal) (A2 m c) from W7_v18 m ρ c]
  exact (LibGcn.host_scaleBiasRelu_eq _ _ _ _ _ _ _).symm

theorem W8_v12 (c : Dev nD) : W8 m ρ c (Proc.devRef .tc main_v12) = Cert.ReferenceIdeal.ReadP.val_main_v12 (F := Ideal) (A1 m c) :=
  (W8_of_ne m ρ c main_v12 (by decide)).trans (W7_v12 m ρ c)
theorem W8_arg1 (c : Dev nD) : W8 m ρ c (Proc.devRef .tc main_arg1) = A1 m c :=
  (W8_of_ne m ρ c main_arg1 (by decide)).trans (W7_arg1 m ρ c)
theorem W8_arg2 (c : Dev nD) : W8 m ρ c (Proc.devRef .tc main_arg2) = A2 m c :=
  (W8_of_ne m ρ c main_arg2 (by decide)).trans (W7_arg2 m ρ c)
theorem W8_arg5 (c : Dev nD) : W8 m ρ c (Proc.devRef .tc main_arg5) = A5 m c :=
  (W8_of_ne m ρ c main_arg5 (by decide)).trans (W7_arg5 m ρ c)
theorem W8_arg6 (c : Dev nD) : W8 m ρ c (Proc.devRef .tc main_arg6) = A6 m c :=
  (W8_of_ne m ρ c main_arg6 (by decide)).trans (W7_arg6 m ρ c)
/-- The second call reads the destination scale column through an input window and leaves it as it was. -/
theorem W8_v18 (c : Dev nD) : W8 m ρ c (Proc.devRef .tc main_v18) = Cert.ReferenceIdeal.ReadP.val_main_v18 (F := Ideal) (A2 m c) :=
  ((W8_arr m ρ c 1).trans (((dat1 (V7 m ρ) c).arrAt_in 1 rfl _).trans (A_eq1 (V7 m ρ) c 1))).trans (W7_v18 m ρ c)

/-! ### After the third call -/

/-- The third call leaves the array program's second projection stage. -/
theorem W9_v32 (c : Dev nD) :
    W9 m ρ c (Proc.devRef .tc main_v32)
      = Cert.ReferenceIdeal.ReadP.val_main_v40 (F := Ideal) (A0 m c) (A1 m c) (A2 m c) (A3 m c) (A4 m c) (A5 m c) := by
  refine (W9_arr m ρ c 3).trans ?_
  refine (Region2.final (V8 m ρ) c).trans ?_
  rw [show V8 m ρ c main_v31 = Cert.ReferenceIdeal.ReadP.val_main_v37 (F := Ideal) (A0 m c) (A1 m c) (A2 m c) (A3 m c) (A4 m c) from W8_v31 m ρ c,
    show V8 m ρ c main_v12 = Cert.ReferenceIdeal.ReadP.val_main_v12 (F := Ideal) (A1 m c) from W8_v12 m ρ c,
    show V8 m ρ c main_arg5 = A5 m c from W8_arg5 m ρ c]
  exact (LibGcn.host_proj_eq _ rfl _ _ _ _).symm

theorem W9_v18 (c : Dev nD) : W9 m ρ c (Proc.devRef .tc main_v18) = Cert.ReferenceIdeal.ReadP.val_main_v18 (F := Ideal) (A2 m c) :=
  (W9_of_ne m ρ c main_v18 (by decide)).trans (W8_v18 m ρ c)
theorem W9_arg1 (c : Dev nD) : W9 m ρ c (Proc.devRef .tc main_arg1) = A1 m c :=
  (W9_of_ne m ρ c main_arg1 (by decide)).trans (W8_arg1 m ρ c)
theorem W9_arg2 (c : Dev nD) : W9 m ρ c (Proc.devRef .tc main_arg2) = A2 m c :=
  (W9_of_ne m ρ c main_arg2 (by decide)).trans (W8_arg2 m ρ c)
theorem W9_arg6 (c : Dev nD) : W9 m ρ c (Proc.devRef .tc main_arg6) = A6 m c :=
  (W9_of_ne m ρ c main_arg6 (by decide)).trans (W8_arg6 m ρ c)

/-! ### After the second gather-and-sum stretch -/

set_option maxHeartbeats 2000000 in
theorem W10_v42 (c : Dev nD) :
    W10 m ρ c (Proc.devRef .tc main_v42)
      = Cert.ReferenceIdeal.ReadP.val_main_v50 (F := Ideal) (A0 m c) (A1 m c) (A2 m c) (A3 m c) (A4 m c) (A5 m c) := by
  show StableHlo.after hostOps3 (W9 m ρ c) (Proc.devRef .tc main_v42) = _
  simp only [hostOps3]
  after_results
  rw [W9_v32 m ρ c, W9_arg1 m ρ c, W9_arg2 m ρ c]
  rfl

set_option maxHeartbeats 2000000 in
/-- The last bias reaches the fourth call as a one-row array whose row is the bias vector. -/
theorem V10_v43 (c : Dev nD) (j : Fin 40) : V10 m ρ c main_v43 (ix2 (0 : Fin 1) j) = A6 m c (ix1 j) := by
  show StableHlo.after hostOps3 (W9 m ρ c) (Proc.devRef .tc main_v43) (ix2 (0 : Fin 1) j) = _
  simp only [hostOps3]
  after_results
  rw [W9_arg6 m ρ c]
  exact LibGcn.shapeCast_vec_row_apply _ _ j

theorem W10_v18 (c : Dev nD) : W10 m ρ c (Proc.devRef .tc main_v18) = Cert.ReferenceIdeal.ReadP.val_main_v18 (F := Ideal) (A2 m c) :=
  (StableHlo.after_of_forall_not_mem hostOps3 (W9 m ρ c) (by not_written hostOps3)).trans (W9_v18 m ρ c)

/-! ### After the fourth call: the result -/

/-- The result buffer ends at the array program's last stage of the launch arguments. -/
theorem W11_v44 (c : Dev nD) :
    W11 m ρ c (Proc.devRef .tc main_v44)
      = Cert.ReferenceIdeal.ReadP.val_main_v55 (F := Ideal) (A0 m c) (A1 m c) (A2 m c) (A3 m c) (A4 m c) (A5 m c) (A6 m c) := by
  refine (W11_arr m ρ c 3).trans ?_
  refine (Region3.final (V10 m ρ) c (A6 m c) (V10_v43 m ρ c)).trans ?_
  rw [show V10 m ρ c main_v42 = Cert.ReferenceIdeal.ReadP.val_main_v50 (F := Ideal) (A0 m c) (A1 m c) (A2 m c) (A3 m c) (A4 m c) (A5 m c) from W10_v42 m ρ c,
    show V10 m ρ c main_v18 = Cert.ReferenceIdeal.ReadP.val_main_v18 (F := Ideal) (A2 m c) from W10_v18 m ρ c]
  exact (LibGcn.host_scaleBias_eq _ _ _ _ _ _).symm

end Cert.KernelIdeal.Chain

end
-- ==== Proof.lean ====
/-
  A two-layer graph convolution computed by four tiled calls among array operations equals the same network written
  with array operations only, on the extended reals.

  Both programs compute, from node features `x`, an edge list (source and destination per edge), two weight matrices
  and two bias vectors: the out- and in-degree of every node by summing ones along the edge list; the scale columns
  `d ↦ if d > 0 then d^(-1/2) else 0`; then twice — scale every node's features by its source column entry and multiply
  by the weights; gather the resulting rows along the source list and sum them along the destination list; scale by
  the destination column entry and add the bias — with the maximum with zero after the first round only.

  The tiled program does the degree columns, the gathers and the sums with the very operations of the array program,
  and the two dense stretches of each round in calls that walk the nodes in 20 tiles of 5000 rows, narrowing the
  matrix product's operands to a 16-bit format. On the extended reals a change of float format is the identity and a
  product accumulated into a zero tile is the plain sum of products, so each call leaves, row for row, what the array
  program's corresponding operations leave; every later step then runs on equal operands. No law of arithmetic beyond
  reading a matrix product as a sum is used, so nothing is asked of the inputs: the finiteness precondition is never
  opened.

  The three frame claims are the two generated frame certificates and the array program's run with its result
  dropped. Nothing was rewritten when the idealized program was printed, so the idealization claim is trivial. For
  the value claim the tiled program's run is posted with its result buffer at the last boundary's contents, those
  contents are read back boundary by boundary to the array program's own last stage of the launch arguments, and the
  array program's run ends at that stage of its own, equal, arguments.
-/
import proofs.«158291_j30202210026006_1_alg».proof.Defs
import proofs.«158291_j30202210026006_1_alg».proof.Proof.Gen.Kernel
import proofs.«158291_j30202210026006_1_alg».proof.Proof.Gen.Kernel.Frame
import proofs.«158291_j30202210026006_1_alg».proof.Proof.Gen.KernelIdeal
import proofs.«158291_j30202210026006_1_alg».proof.Proof.Gen.KernelIdeal.Frame
import proofs.«158291_j30202210026006_1_alg».proof.Proof.Gen.ReferenceIdeal
import proofs.«158291_j30202210026006_1_alg».proof.Proof.Gen.Pre_finite_inputs
import proofs.«158291_j30202210026006_1_alg».proof.Proof.KRun
import proofs.«158291_j30202210026006_1_alg».proof.Proof.Chain
import proofs.«158291_j30202210026006_1_alg».proof.Proof.RefRun
import proofs.«158291_j30202210026006_1_alg».proof.Proof.RefRead
import Idealize.ShloMosaic.Adequacy
import Idealize.ShloMosaic.Init

noncomputable section

namespace Cert.Proof

open Idealize.ShloMosaic Idealize.SL.Sem

/-- The tiled program, word for word: the generated frame certificate. -/
theorem frame_k : Cert.frame_Kernel := fun m ρ _ => Cert.Kernel.Gen.frame m ρ

/-- The tiled program on the extended reals: the generated frame certificate. -/
theorem frame_ki : Cert.frame_KernelIdeal := fun m ρ _ => Cert.KernelIdeal.Gen.frame m ρ

/-- The array program: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Nothing was rewritten in printing the idealized program. -/
theorem preserves : Cert.preserves_Kernel_KernelIdeal := trivial

/-- Both programs end with the result at the array program's last stage of the tiled program's launch arguments. -/
theorem algebraic : Cert.algebraic_KernelIdeal_ReferenceIdeal := by
  intro m ρ m' ρ' _ hagree
  refine ⟨fun c => Cert.ReferenceIdeal.ReadP.val_main_v55 (F := Ideal) (Cert.KernelIdeal.Chain.A0 m c)
    (Cert.KernelIdeal.Chain.A1 m c) (Cert.KernelIdeal.Chain.A2 m c) (Cert.KernelIdeal.Chain.A3 m c)
    (Cert.KernelIdeal.Chain.A4 m c) (Cert.KernelIdeal.Chain.A5 m c) (Cert.KernelIdeal.Chain.A6 m c), ?_, ?_⟩
  · exact (θ_run Cert.KernelIdeal.defs _ _).mono
      (fun _ h c => ⟨(h c).1.trans (Cert.KernelIdeal.Chain.W11_v44 m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.ReadP.val_main_v55_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
